-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S128x1024 : Shape := ⟨2, ![128, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S64x512x1024 .f32) (main_arg1 : FVec F S128x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S64x512x1024 : Shape := ⟨3, ![64, 512, 1024]⟩
abbrev S128x1024 : Shape := ⟨2, ![128, 1024]⟩
abbrev S64x512x128 : Shape := ⟨3, ![64, 512, 128]⟩
abbrev S64x512x512 : Shape := ⟨3, ![64, 512, 512]⟩
abbrev S1x512x1024 : Shape := ⟨3, ![1, 512, 1024]⟩
abbrev S1x512x128 : Shape := ⟨3, ![1, 512, 128]⟩
abbrev S1x512x512 : Shape := ⟨3, ![1, 512, 512]⟩
abbrev S512x1024 : Shape := ⟨2, ![512, 1024]⟩
abbrev S1024x128 : Shape := ⟨2, ![1024, 128]⟩
abbrev S512x128 : Shape := ⟨2, ![512, 128]⟩
abbrev S128x512 : Shape := ⟨2, ![128, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S64x512x1024, .f32⟩
  | .hbm, ⟨1, _⟩ => ⟨S128x1024, .f32⟩
  | .hbm, ⟨2, _⟩ => ⟨S64x512x128, .f32⟩
  | .hbm, ⟨3, _⟩ => ⟨S64x512x512, .f32⟩
  | .local _ .vmem, ⟨0, _⟩ => ⟨S1x512x1024, .f32⟩
  | .local _ .vmem, ⟨1, _⟩ => ⟨S1x512x1024, .f32⟩
  | .local _ .vmem, ⟨2, _⟩ => ⟨S128x1024, .f32⟩
  | .local _ .vmem, ⟨3, _⟩ => ⟨S1x512x128, .f32⟩
  | .local _ .vmem, ⟨4, _⟩ => ⟨S1x512x128, .f32⟩
  | .local _ .vmem, ⟨5, _⟩ => ⟨S1x512x512, .f32⟩
  | .local _ .vmem, ⟨6, _⟩ => ⟨S1x512x512, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  transposes_S128x1024_p1_0_S1024x128 : S128x1024.Transposes [1, 0] S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  transposes_S512x128_p1_0_S128x512 : S512x128.Transposes [1, 0] S128x512
  reduces_S512x128_S512 : S512x128.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x1024_S1024x128_S512x128_1_0_0_1_n_n_wf : DotDims.WF S512x1024 S1024x128 S512x128 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x128.size a ≤ S64x512x128.size a
  hwx0_2 : ∀ i : grid0.Coords, EltTy.bits .f32 = 32 ∨ (Rect.block (s := S64x512x128) S1x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .f32 = 32 ∨ (Rect.block (s := S64x512x512) S1x512x512.size (cc0_transform_3 i) (hinb0_3 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S128x1024 : Shape := ⟨2, ![128, 1024]⟩
abbrev S64x512x128 : Shape := ⟨3, ![64, 512, 128]⟩
abbrev S_ : Shape := ⟨0, ![]⟩
abbrev S64x512 : Shape := ⟨2, ![64, 512]⟩
abbrev S64x512x512 : Shape := ⟨3, ![64, 512, 512]⟩
abbrev S64x512x1 : Shape := ⟨3, ![64, 512, 1]⟩
abbrev S64x1x512 : Shape := ⟨3, ![64, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S128x1024, .f32⟩
  | .hbm, ⟨2, _⟩ => ⟨S64x512x128, .f32⟩
  | .hbm, ⟨3, _⟩ => ⟨S64x512x128, .f32⟩
  | .hbm, ⟨4, _⟩ => ⟨S_, .f32⟩
  | .hbm, ⟨5, _⟩ => ⟨S64x512, .f32⟩
  | .hbm, ⟨6, _⟩ => ⟨S64x512x512, .f32⟩
  | .hbm, ⟨7, _⟩ => ⟨S64x512x1, .f32⟩
  | .hbm, ⟨8, _⟩ => ⟨S64x1x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S_, .f32⟩
  | .hbm, ⟨17, _⟩ => ⟨S64x512x512, .f32⟩
  | .hbm, ⟨18, _⟩ => ⟨S64x512x512, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S64x512x128_S64x512_d2 : S64x512x128.ReducesTo [2] S64x512
  h_S_ : 0 < S_.numel
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  dot_S64x512x1024_S128x1024_S64x512x128_2_1_01_0_n_n_wf : DotDims.WF S64x512x1024 S128x1024 S64x512x128 [2] [1] [0, 1] [0] [] []
  dot_S64x512x128_S64x512x128_S64x512x512_2_2_1_1_0_0_wf : DotDims.WF S64x512x128 S64x512x128 S64x512x512 [2] [2] [1] [1] [0] [0]

variable [Facts₀]

def dot_S64x512x1024_S128x1024_S64x512x128_2_1_01_0_n_n : DotDims S64x512x1024 S128x1024 S64x512x128 where
  lhsContracting := [2]
  rhsContracting := [1]
  lhsNonContracting := [0, 1]
  rhsNonContracting := [0]
  lhsBatch := []
  rhsBatch := []
  wf := dot_S64x512x1024_S128x1024_S64x512x128_2_1_01_0_n_n_wf
def dot_S64x512x128_S64x512x128_S64x512x512_2_2_1_1_0_0 : DotDims S64x512x128 S64x512x128 S64x512x512 where
  lhsContracting := [2]
  rhsContracting := [2]
  lhsNonContracting := [1]
  rhsNonContracting := [1]
  lhsBatch := [0]
  rhsBatch := [0]
  wf := dot_S64x512x128_S64x512x128_S64x512x512_2_2_1_1_0_0_wf

class Facts : Prop extends Facts₀ where

variable [Facts]
-- ==== Proof.LibKeepdimsColumn.lean ====
/-
  A column kept by a row reduction (`keepdims=True`): a vector `[a]` re-laid as the column `[a, 1]`, and that column
  spread over `b` columns. Each is read at an index written by coordinates: the column at `(i, u)` is the vector at
  `i` (the two have the same row-major position, `i · 1 + 0 = i`), and the spread matrix at `(i, j)` is the column at
  `(i, 0)` (a unit axis of the operand is read at `0`, the other axis at the result's own coordinate). Together with
  the library's row forms (`[a] → [1, a]`, `[1, b] → [a, b]`, a matrix transposed) they read `s_i + s_j` off the two
  spreads of one vector of row sums.
-/
import Idealize.ShloMosaic.Lib.ValueLayout

namespace Cert.KeepdimsColumn

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.KeepdimsColumn
-- ==== Proof.KernelBlock.lean ====
/-
  ONE SENTENCE'S BLOCK, INDEX BY INDEX. At a grid point the body holds one sentence `x` (a `[1, 512, 1024]` block) and the
  whole matrix `W`. It forms the projected rows `D = x · Wᵀ` by a product into a zero accumulator, which at the extended
  reals is the plain sum `D[l, o] = Σ_d x[0, l, d] · W[o, d]` (the change of number format before the product is the
  identity there, and the transposed operand read at `(d, o)` is `W` at `(o, d)`). It stores `D` as the first block.
  From the same `D`, never from what it stored, it forms the Gram matrix `D · Dᵀ`, again a plain sum over the 128
  projected features; the row sums of `D ∘ D` as a lane reduction, kept as a column, spread along the rows, and,
  transposed, along the columns; and stores `max ((s_i + s_j) − 2 · g_ij, 0)` as the second block.
-/
import proofs.«170934_j9405978378446_1_alg».proof.Proof.Gen.KernelIdeal.Skeleton
import proofs.«170934_j9405978378446_1_alg».proof.Proof.LibKeepdimsColumn
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx Cert.KeepdimsColumn

/-! ## The two products: where each reads its operands -/

theorem projDot_lhs0 (j : S512x128.Idx) (q : dot_S512x1024_S1024x128_S512x128_1_0_0_1_n_n.contr.Idx) : (dot_S512x1024_S1024x128_S512x128_1_0_0_1_n_n.lhsIdx j q 0).val = (j 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem projDot_lhs1 (j : S512x128.Idx) (q : dot_S512x1024_S1024x128_S512x128_1_0_0_1_n_n.contr.Idx) : (dot_S512x1024_S1024x128_S512x128_1_0_0_1_n_n.lhsIdx j q 1).val = (q ⟨0, by decide⟩).val :=
  dot_S512x1024_S1024x128_S512x128_1_0_0_1_n_n.lhsIdx_val_of_single rfl j q
theorem projDot_rhs0 (j : S512x128.Idx) (q : dot_S512x1024_S1024x128_S512x128_1_0_0_1_n_n.contr.Idx) : (dot_S512x1024_S1024x128_S512x128_1_0_0_1_n_n.rhsIdx j q 0).val = (q ⟨0, by decide⟩).val :=
  dot_S512x1024_S1024x128_S512x128_1_0_0_1_n_n.rhsIdx_val_of_single rfl j q
theorem projDot_rhs1 (j : S512x128.Idx) (q : dot_S512x1024_S1024x128_S512x128_1_0_0_1_n_n.contr.Idx) : (dot_S512x1024_S1024x128_S512x128_1_0_0_1_n_n.rhsIdx j q 1).val = (j 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

theorem gramDot_lhs0 (j : S512x512.Idx) (q : dot_S512x128_S128x512_S512x512_1_0_0_1_n_n.contr.Idx) : (dot_S512x128_S128x512_S512x512_1_0_0_1_n_n.lhsIdx j q 0).val = (j 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
theorem gramDot_lhs1 (j : S512x512.Idx) (q : dot_S512x128_S128x512_S512x512_1_0_0_1_n_n.contr.Idx) : (dot_S512x128_S128x512_S512x512_1_0_0_1_n_n.lhsIdx j q 1).val = (q ⟨0, by decide⟩).val :=
  dot_S512x128_S128x512_S512x512_1_0_0_1_n_n.lhsIdx_val_of_single rfl j q
theorem gramDot_rhs0 (j : S512x512.Idx) (q : dot_S512x128_S128x512_S512x512_1_0_0_1_n_n.contr.Idx) : (dot_S512x128_S128x512_S512x512_1_0_0_1_n_n.rhsIdx j q 0).val = (q ⟨0, by decide⟩).val :=
  dot_S512x128_S128x512_S512x512_1_0_0_1_n_n.rhsIdx_val_of_single rfl j q
theorem gramDot_rhs1 (j : S512x512.Idx) (q : dot_S512x128_S128x512_S512x512_1_0_0_1_n_n.contr.Idx) : (dot_S512x128_S128x512_S512x512_1_0_0_1_n_n.rhsIdx j q 1).val = (j 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- Rows times columns over the 1024 features, into a zero accumulator: the plain sum. -/
theorem projDot_apply (l : FVec Ideal S512x1024 .bf16) (r : FVec Ideal S1024x128 .bf16) (p : Fin 512) (c : Fin 128) :
    matmul dot_S512x1024_S1024x128_S512x128_1_0_0_1_n_n none l r (constant (F := Ideal) S512x128 .f32 0x00000000#32) (ix2 p c) = ∑ k : Fin 1024, l (ix2 p k) * r (ix2 k c) := by
  simp only [matmul]
  rw [Ideal.matmul_constant_zero_apply, ← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 p c) ((contrEquiv1 dot_S512x1024_S1024x128_S512x128_1_0_0_1_n_n 1024 rfl rfl).symm k) = ix2 p k := funext fun a => Fin.ext (by
    match a with
    | ⟨0, _⟩ => exact projDot_lhs0 _ _
    | ⟨1, _⟩ => exact (projDot_lhs1 _ _).trans hk)
  have er : dot_S512x1024_S1024x128_S512x128_1_0_0_1_n_n.rhsIdx (ix2 p c) ((contrEquiv1 dot_S512x1024_S1024x128_S512x128_1_0_0_1_n_n 1024 rfl rfl).symm k) = ix2 k c := funext fun a => Fin.ext (by
    match a with
    | ⟨0, _⟩ => exact (projDot_rhs0 _ _).trans hk
    | ⟨1, _⟩ => exact projDot_rhs1 _ _)
  rw [el, er]

/-- Rows times columns over the 128 projected features, into a zero accumulator: the plain sum. -/
theorem gramDot_apply (l : FVec Ideal S512x128 .bf16) (r : FVec Ideal S128x512 .bf16) (p : Fin 512) (c : Fin 512) :
    matmul dot_S512x128_S128x512_S512x512_1_0_0_1_n_n none l r (constant (F := Ideal) S512x512 .f32 0x00000000#32) (ix2 p c) = ∑ k : Fin 128, l (ix2 p k) * r (ix2 k c) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p c) ((contrEquiv1 dot_S512x128_S128x512_S512x512_1_0_0_1_n_n 128 rfl rfl).symm k) = ix2 p k := funext fun a => Fin.ext (by
    match a with
    | ⟨0, _⟩ => exact gramDot_lhs0 _ _
    | ⟨1, _⟩ => exact (gramDot_lhs1 _ _).trans hk)
  have er : dot_S512x128_S128x512_S512x512_1_0_0_1_n_n.rhsIdx (ix2 p c) ((contrEquiv1 dot_S512x128_S128x512_S512x512_1_0_0_1_n_n 128 rfl rfl).symm k) = ix2 k c := funext fun a => Fin.ext (by
    match a with
    | ⟨0, _⟩ => exact (gramDot_rhs0 _ _).trans hk
    | ⟨1, _⟩ => exact gramDot_rhs1 _ _)
  rw [el, er]

/-! ## The row sums, kept as a column -/

/-- The lane reduction of a `[512, 128]` matrix at row `i` is the sum of that row. -/
theorem rowSum_apply (v : FVec Ideal S512x128 .f32) (i : Fin 512) :
    multiReduction (F := Ideal) .add [1] S512 v 0x00000000#32 reduces_S512x128_S512 (.inl rfl) rfl (ix1 i) = ∑ k : Fin 128, v (ix2 i k) := by
  refine (Ideal.multiReduction_add_single v _ reduces_S512x128_S512 (.inl rfl) rfl (ix1 i)).trans ?_
  refine Finset.sum_congr rfl fun k _ => congrArg v ?_
  funext a; apply Fin.ext
  match a with
  | ⟨0, _⟩ => rfl
  | ⟨1, _⟩ => rfl

/-- The row sum of the squares of a matrix's entries, at row `i`. -/
theorem sqRow_apply (D : FVec Ideal S512x128 .f32) (i : Fin 512) :
    multiReduction (F := Ideal) .add [1] S512 (mulf D D) 0x00000000#32 reduces_S512x128_S512 (.inl rfl) rfl (ix1 i)
      = ∑ o : Fin 128, D (ix2 i o) * D (ix2 i o) :=
  rowSum_apply (mulf D D) i

/-- A vector of row sums kept as a column and spread along the rows reads, at `(i, j)`, entry `i`. -/
theorem rowSpread_apply (s : FVec Ideal S512 .f32) (i j : Fin 512) :
    broadcastTo S512x512 (shapeCast S512x1 s shapeCasts_S512_S512x1) broadcasts_S512x1_S512x512 (ix2 i j) = s (ix1 i) :=
  (broadcastTo_a1_ab_apply _ _ i j).trans (shapeCast_a_a1_apply s _ i 0)

/-- The same column transposed to a row and spread along the columns reads, at `(i, j)`, entry `j`. -/
theorem colSpread_apply (s : FVec Ideal S512 .f32) (i j : Fin 512) :
    broadcastTo S512x512 (transpose S1x512 [1, 0] (shapeCast S512x1 s shapeCasts_S512_S512x1) transposes_S512x1_p1_0_S1x512)
      broadcasts_S1x512_S512x512 (ix2 i j) = s (ix1 j) :=
  (broadcastTo_1b_ab_apply _ _ i j).trans ((transpose_ix2_apply _ _ (0 : Fin 1) j).trans (shapeCast_a_a1_apply s _ j 0))

/-- A matrix times its own transpose, into a zero accumulator: the inner product of rows `i` and `j`. -/
theorem gramBlock_apply (D : FVec Ideal S512x128 .f32) (i j : Fin 512) :
    matmul dot_S512x128_S128x512_S512x512_1_0_0_1_n_n none (truncf .bf16 D bitsLt_bf16_f32 : FVec Ideal S512x128 .bf16)
      (transpose S128x512 [1, 0] (truncf .bf16 D bitsLt_bf16_f32 : FVec Ideal S512x128 .bf16) transposes_S512x128_p1_0_S128x512)
      (constant (F := Ideal) S512x512 .f32 0x00000000#32) (ix2 i j) = ∑ o : Fin 128, D (ix2 i o) * D (ix2 j o) := by
  refine (gramDot_apply _ _ i j).trans ?_
  refine Finset.sum_congr rfl fun o _ => ?_
  have e2 : (transpose S128x512 [1, 0] (truncf .bf16 D bitsLt_bf16_f32 : FVec Ideal S512x128 .bf16) transposes_S512x128_p1_0_S128x512 : FVec Ideal S128x512 .bf16) (ix2 o j)
      = D (ix2 j o) := transpose_ix2_apply _ _ o j
  rw [e2]; rfl

/-! ## The payloads -/

/-- The projected rows of the block: `D[l, o] = Σ_d x[0, l, d] · W[o, d]`. -/
theorem projBlock_apply (P0 : FVec Ideal S1x512x1024 .f32) (P1 : FVec Ideal S128x1024 .f32) (l : Fin 512) (o : Fin 128) :
    k0_pay1 (F := Ideal) P0 P1 (ix2 l o) = ∑ d : Fin 1024, P0 (ix3 (0 : Fin 1) l d) * P1 (ix2 o d) := by
  unfold k0_pay1
  refine (projDot_apply _ _ l o).trans ?_
  refine Finset.sum_congr rfl fun d _ => ?_
  have e1 : (truncf .bf16 (shapeCast S512x1024 P0 shapeCasts_S1x512x1024_S512x1024) bitsLt_bf16_f32 : FVec Ideal S512x1024 .bf16) (ix2 l d)
      = P0 (ix3 (0 : Fin 1) l d) := shapeCast_1ab_ab_apply P0 _ l d
  have e2 : (transpose S1024x128 [1, 0] (truncf .bf16 P1 bitsLt_bf16_f32 : FVec Ideal S128x1024 .bf16) transposes_S128x1024_p1_0_S1024x128 : FVec Ideal S1024x128 .bf16) (ix2 d o)
      = P1 (ix2 o d) := transpose_ix2_apply _ _ d o
  rw [e1, e2]

/-- The first stored block is `D` under a leading unit axis. -/
theorem storedProj_apply (P0 : FVec Ideal S1x512x1024 .f32) (P1 : FVec Ideal S128x1024 .f32) (u : Fin 1) (l : Fin 512) (o : Fin 128) :
    k0_pay2 (F := Ideal) P0 P1 (ix3 u l o) = k0_pay1 (F := Ideal) P0 P1 (ix2 l o) := by
  unfold k0_pay2
  exact shapeCast_ab_1ab_apply _ _ u l o

/-- The second stored block: `max ((s_i + s_j) − 2 · g_ij, 0)` of the block's projected rows `D`. -/
theorem storedDist_apply (P0 : FVec Ideal S1x512x1024 .f32) (P1 : FVec Ideal S128x1024 .f32) (u : Fin 1) (i j : Fin 512) :
    k0_pay3 (F := Ideal) P0 P1 (ix3 u i j)
      = max (((∑ o : Fin 128, k0_pay1 (F := Ideal) P0 P1 (ix2 i o) * k0_pay1 (F := Ideal) P0 P1 (ix2 i o))
            + ∑ o : Fin 128, k0_pay1 (F := Ideal) P0 P1 (ix2 j o) * k0_pay1 (F := Ideal) P0 P1 (ix2 j o))
          - Ideal.ofBits .f32 0x40000000#32 * ∑ o : Fin 128, k0_pay1 (F := Ideal) P0 P1 (ix2 i o) * k0_pay1 (F := Ideal) P0 P1 (ix2 j o)) 0 := by
  unfold k0_pay3
  refine (shapeCast_ab_1ab_apply _ _ u i j).trans ?_
  rw [maximumf_apply, subf_apply, addf_apply, mulf_apply, broadcast_apply, broadcast_apply,
    rowSpread_apply, colSpread_apply, gramBlock_apply, sqRow_apply, sqRow_apply]
  simp only [Ideal.ofBits_def, Ideal.ofBits_zero_f32]

end Cert.KernelIdeal.Block

end
-- ==== Proof.PairwiseDistance.lean ====
/-
  THE SPECIFICATION. A batch of 64 sentences, each 512 rows of 1024 numbers, is projected row by row through a
  128 × 1024 matrix `W`:            p[b, l, o] = Σ_d e[b, l, d] · W[o, d].
  Within a sentence the squared distance between projected rows `i` and `j` is taken by the polarization identity,
  never by subtracting the rows:      dist[b, i, j] = max ((s[b, i] + s[b, j]) − 2 · g[b, i, j], 0),
  with the squared norms              s[b, l] = Σ_o p[b, l, o] · p[b, l, o]
  and the Gram matrix                 g[b, i, j] = Σ_o p[b, i, o] · p[b, j, o].
  Everything is over the extended reals, with the sums, the grouping `(s_i + s_j) − 2·g` and the clamp at zero exactly as
  written: nothing here is rearranged, so no law that fails at an infinity is needed to meet either program.
  The factor two is the word `0x40000000` (it is the same word in both programs and is never evaluated).
-/
import Idealize.ShloMosaic.PureOps.Ideal
import Idealize.ShloMosaic.Lib.ValueIdx

noncomputable section

namespace Cert.Probe

open Idealize.ShloMosaic Idealize.ShloMosaic.ValueIdx

/-- The sentences `[64, 512, 1024]`, the matrix `[128, 1024]`, the projections `[64, 512, 128]`, the distances `[64, 512, 512]`. -/
abbrev SEmb : Shape := ⟨3, ![64, 512, 1024]⟩
abbrev SMat : Shape := ⟨2, ![128, 1024]⟩
abbrev SProj : Shape := ⟨3, ![64, 512, 128]⟩
abbrev SDist : Shape := ⟨3, ![64, 512, 512]⟩

/-- Row `l` of sentence `b` against row `o` of the matrix. -/
def proj (e : SEmb.Idx → EReal) (w : SMat.Idx → EReal) : SProj.Idx → EReal :=
  fun i => ∑ d : Fin 1024, e (ix3 (i 0) (i 1) d) * w (ix2 (i 2) d)

/-- The squared norm of projected row `l` of sentence `b`. -/
def sqNorm (p : SProj.Idx → EReal) (b : Fin 64) (l : Fin 512) : EReal :=
  ∑ o : Fin 128, p (ix3 b l o) * p (ix3 b l o)

/-- The inner product of projected rows `i` and `j` of sentence `b`. -/
def gram (p : SProj.Idx → EReal) (b : Fin 64) (i j : Fin 512) : EReal :=
  ∑ o : Fin 128, p (ix3 b i o) * p (ix3 b j o)

/-- The clamped squared distance between projected rows `i` and `j` of sentence `b`. -/
def sqDist (e : SEmb.Idx → EReal) (w : SMat.Idx → EReal) : SDist.Idx → EReal :=
  fun i => max ((sqNorm (proj e w) (i 0) (i 1) + sqNorm (proj e w) (i 0) (i 2))
      - Ideal.ofBits .f32 0x40000000#32 * gram (proj e w) (i 0) (i 1) (i 2)) 0

/-- The projection and the distance read at an index given by its coordinates. -/
theorem proj_ix3 (e : SEmb.Idx → EReal) (w : SMat.Idx → EReal) (b : Fin 64) (l : Fin 512) (o : Fin 128) :
    proj e w (ix3 b l o) = ∑ d : Fin 1024, e (ix3 b l d) * w (ix2 o d) := rfl

theorem sqDist_ix3 (e : SEmb.Idx → EReal) (w : SMat.Idx → EReal) (b : Fin 64) (i j : Fin 512) :
    sqDist e w (ix3 b i j) = max ((sqNorm (proj e w) b i + sqNorm (proj e w) b j)
      - Ideal.ofBits .f32 0x40000000#32 * gram (proj e w) b i j) 0 := rfl

end Cert.Probe

end
-- ==== Proof.KernelArrays.lean ====
/-
  FROM BLOCKS TO ARRAYS. The grid has one point per sentence. Point `t` stages sentence `t` of the first argument (block
  `(t, 0, 0)` of blocks of one sentence each) and the whole matrix (its only block), and writes back block `(t, 0, 0)` of each
  result: the projected rows of sentence `t`, and that sentence's `512 × 512` distances. So an entry `(0, l, d)` of the staged
  sentence is entry `(t, l, d)` of the argument, and entry `(u, ·, ·)` of a written block lands at `(t, ·, ·)` of its array.
  The 64 blocks of each result are its 64 sentences: every index `(b, ·, ·)` is in the block of the point `b`. Hence each result
  array, after the run, is the specification's function of the two argument arrays as the run found them.
-/
import proofs.«170934_j9405978378446_1_alg».proof.Proof.Gen.KernelIdeal.Value
import proofs.«170934_j9405978378446_1_alg».proof.Proof.KernelBlock
import proofs.«170934_j9405978378446_1_alg».proof.Proof.PairwiseDistance
import Idealize.ShloMosaic.Lib.Pipeline.Value
import Idealize.ShloMosaic.Lib.Tactic

noncomputable section

namespace Cert.KernelIdeal.Arrays

open Cert.KernelIdeal Cert.KernelIdeal.Gen Cert.KernelIdeal.Value Cert.KernelIdeal.Block
open Idealize.ShloMosaic Idealize.ShloMosaic.TcCoe Idealize.SL.Sem Idealize.ShloMosaic.ValueIdx Cert.Probe
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the 64 points: point `t` is at block `(t, 0, 0)` of the sentences and of both
    results, and at the matrix's one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The sentence a grid point works on. -/
def sent (t : Fin cfg0.N) : Fin 64 := ⟨t.val, Nat.lt_of_lt_of_eq t.isLt N_0⟩

/-- The two argument arrays as the run finds them, at their literal types. -/
abbrev sentences (c : Dev nD) : FVec Ideal S64x512x1024 .f32 := V m c main_arg0
abbrev matrix (c : Dev nD) : FVec Ideal S128x1024 .f32 := V m c main_arg1

/-- The staged sentence at point `t`, at `(0, l, d)`, is the argument at `(t, l, d)`. -/
theorem sentBlock_apply (c : Dev nD) (t : Fin cfg0.N) (l : Fin 512) (d : Fin 1024) :
    (iblk m c 0 t : FVec Ideal S1x512x1024 .f32) (ix3 (0 : Fin 1) l d) = sentences m c (ix3 (sent t) l d) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = t.val; omega
  | ⟨1, _⟩ => show win0_0.index t (1 : Fin 3) * 512 + 1 * l.val = l.val; omega
  | ⟨2, _⟩ => show win0_0.index t (2 : Fin 3) * 1024 + 1 * d.val = d.val; omega

/-- The staged matrix at any point is the matrix. -/
theorem matBlock_apply (c : Dev nD) (t : Fin cfg0.N) (o : Fin 128) (d : Fin 1024) :
    (iblk m c 1 t : FVec Ideal S128x1024 .f32) (ix2 o d) = matrix m c (ix2 o d) := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 128 + 1 * o.val = o.val; omega
  | ⟨1, _⟩ => show win0_1.index t (1 : Fin 2) * 1024 + 1 * d.val = d.val; omega

/-- Entry `(u, l, o)` of the block point `t` writes to the first result lands at `(t, l, o)` of the array. -/
theorem projOut_emb (t : Fin cfg0.N) (u : Fin 1) (l : Fin 512) (o : Fin 128) :
    ((cfg0.win 2).blk t).view.emb (ix3 u l o) = (ix3 (sent t) l o : S64x512x128.Idx) := by
  obtain ⟨-, -, -, -, -, e0, e1, e2, -⟩ := idx_facts t
  have hu : u.val = 0 := by omega
  funext a
  apply Fin.ext
  match a with
  | ⟨0, _⟩ => show win0_2.index t (0 : Fin 3) * 1 + 1 * u.val = t.val; omega
  | ⟨1, _⟩ => show win0_2.index t (1 : Fin 3) * 512 + 1 * l.val = l.val; omega
  | ⟨2, _⟩ => show win0_2.index t (2 : Fin 3) * 128 + 1 * o.val = o.val; omega

/-- Entry `(u, i, j)` of the block point `t` writes to the second result lands at `(t, i, j)` of the array. -/
theorem distOut_emb (t : Fin cfg0.N) (u : Fin 1) (i j : Fin 512) :
    ((cfg0.win 3).blk t).view.emb (ix3 u i j) = (ix3 (sent t) i j : S64x512x512.Idx) := by
  obtain ⟨-, -, -, -, -, -, -, -, e0, e1, e2⟩ := idx_facts t
  have hu : u.val = 0 := by omega
  funext a
  apply Fin.ext
  match a with
  | ⟨0, _⟩ => show win0_3.index t (0 : Fin 3) * 1 + 1 * u.val = t.val; omega
  | ⟨1, _⟩ => show win0_3.index t (1 : Fin 3) * 512 + 1 * i.val = i.val; omega
  | ⟨2, _⟩ => show win0_3.index t (2 : Fin 3) * 512 + 1 * j.val = j.val; omega

/-- The projected rows the body forms at point `t` are the projection's rows of sentence `t`. -/
theorem blockRows_eq (c : Dev nD) (t : Fin cfg0.N) (l : Fin 512) (o : Fin 128) :
    k0_pay1 (F := Ideal) (iblk m c 0 t) (iblk m c 1 t) (ix2 l o) = proj (sentences m c) (matrix m c) (ix3 (sent t) l o) := by
  rw [proj_ix3]
  refine (projBlock_apply (iblk m c 0 t) (iblk m c 1 t) l o).trans ?_
  exact Finset.sum_congr rfl fun d _ => by rw [sentBlock_apply, matBlock_apply]

/-- WHAT POINT `t` WRITES BACK to the first result is block `t` of the projection of the arguments. -/
theorem flushedProj_eq (c : Dev nD) (t : Fin cfg0.N) :
    (dats m 0 c).flushed 2 t = ((cfg0.win 2).blk t).view.read (Elt Ideal) (proj (sentences m c) (matrix m c)) := by
  rw [flushed2]
  unfold out0_2
  rw [View.canon_unit_zero zero3]
  simp only [View.ld_unit_zero (S := S1x512x1024) zero3, View.ld_unit_zero (S := S128x1024) zero2]
  funext y
  obtain ⟨u, l, o, rfl⟩ : ∃ (u : Fin 1) (l : Fin 512) (o : Fin 128), y = ix3 u l o := ⟨y 0, y 1, y 2, eq_ix3 y⟩
  rw [View.read_apply, projOut_emb]
  show (k0_pay2 (F := Ideal) (iblk m c 0 t) (iblk m c 1 t)) (ix3 u l o) = _
  exact (storedProj_apply (iblk m c 0 t) (iblk m c 1 t) u l o).trans (blockRows_eq m c t l o)

/-- WHAT POINT `t` WRITES BACK to the second result is block `t` of the distances of the arguments' projected rows. -/
theorem flushedDist_eq (c : Dev nD) (t : Fin cfg0.N) :
    (dats m 0 c).flushed 3 t = ((cfg0.win 3).blk t).view.read (Elt Ideal) (sqDist (sentences m c) (matrix m c)) := by
  rw [flushed3]
  unfold out0_3
  rw [View.canon_unit_zero zero3]
  simp only [View.ld_unit_zero (S := S1x512x1024) zero3, View.ld_unit_zero (S := S128x1024) zero2]
  funext y
  obtain ⟨u, i, j, rfl⟩ : ∃ (u : Fin 1) (i j : Fin 512), y = ix3 u i j := ⟨y 0, y 1, y 2, eq_ix3 y⟩
  rw [View.read_apply, distOut_emb]
  show (k0_pay3 (F := Ideal) (iblk m c 0 t) (iblk m c 1 t)) (ix3 u i j) = sqDist (sentences m c) (matrix m c) (ix3 (sent t) i j)
  refine (storedDist_apply (iblk m c 0 t) (iblk m c 1 t) u i j).trans ?_
  rw [sqDist_ix3]
  simp only [blockRows_eq, sqNorm, gram]

/-! ## The blocks fill the arrays -/

/-- An index of the first result is in point `t`'s block iff each coordinate is in the block's range on its axis. -/
theorem mem_projBlock (t : Fin cfg0.N) (i : S64x512x128.Idx) :
    i ∈ ((cfg0.win 2).blk t).view.set ↔ ∀ a : Fin 3, win0_2.index t a * S1x512x128.size a ≤ (i a).val ∧ (i a).val < win0_2.index t a * S1x512x128.size a + S1x512x128.size a := by
  show i ∈ ((View.whole main_v0_0).slice (win0_2.rect t)).set ↔ _
  rw [View.set_slice_whole, Rect.mem_set_unit]
  exact Iff.rfl

theorem mem_distBlock (t : Fin cfg0.N) (i : S64x512x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0_1).slice (win0_3.rect t)).set ↔ _
  rw [View.set_slice_whole, Rect.mem_set_unit]
  exact Iff.rfl

/-- Every index `(b, l, o)` of the first result is in the block of the point `b`. -/
theorem projCover (i : S64x512x128.Idx) : ∃ t : Fin cfg0.N, (cfg0.win 2).flush t = true ∧ i ∈ ((cfg0.win 2).blk t).view.set := by
  have hb : (i 0).val < 64 := (i 0).isLt
  have hl : (i 1).val < 512 := (i 1).isLt
  have ho : (i 2).val < 128 := (i 2).isLt
  obtain ⟨t, ht⟩ : ∃ t : Fin cfg0.N, t.val = (i 0).val := ⟨⟨(i 0).val, Nat.lt_of_lt_of_eq hb N_0.symm⟩, rfl⟩
  obtain ⟨-, -, -, -, -, e0, e1, e2, -⟩ := idx_facts t
  refine ⟨t, flush0_2 t, ?_⟩
  rw [mem_projBlock]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 128 ≤ (i 2).val ∧ (i 2).val < win0_2.index t (2 : Fin 3) * 128 + 128; omega

/-- Every index `(b, i, j)` of the second result is in the block of the point `b`. -/
theorem distCover (i : S64x512x512.Idx) : ∃ t : Fin cfg0.N, (cfg0.win 3).flush t = true ∧ i ∈ ((cfg0.win 3).blk t).view.set := by
  have hb : (i 0).val < 64 := (i 0).isLt
  have hl : (i 1).val < 512 := (i 1).isLt
  have ho : (i 2).val < 512 := (i 2).isLt
  obtain ⟨t, ht⟩ : ∃ t : Fin cfg0.N, t.val = (i 0).val := ⟨⟨(i 0).val, Nat.lt_of_lt_of_eq hb N_0.symm⟩, rfl⟩
  obtain ⟨-, -, -, -, -, -, -, -, e0, e1, e2⟩ := idx_facts t
  refine ⟨t, flush0_3 t, ?_⟩
  rw [mem_distBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-! ## The arrays after the run -/

/-- The first result array ends holding the projection of the argument arrays. -/
theorem finalProj (c : Dev nD) : (dats m 0 c).arrAt 2 cfg0.N = proj (sentences m c) (matrix m c) :=
  (dats m 0 c).arrAt_eq_of_cover 2 (proj (sentences m c) (matrix m c)) (fun t _ => flushedProj_eq m c t) projCover

/-- The second result array ends holding the clamped squared distances of the projected rows. -/
theorem finalDist (c : Dev nD) : (dats m 0 c).arrAt 3 cfg0.N = sqDist (sentences m c) (matrix m c) :=
  (dats m 0 c).arrAt_eq_of_cover 3 (sqDist (sentences m c) (matrix m c)) (fun t _ => flushedDist_eq m c t) distCover

/-- The run, read: each result array at the specification's function of the arguments as launched, the arguments unchanged. -/
theorem run : θ_run defs (onTc (τ := τ) (main (F := Ideal))) ⟨m, fun _ => 0, ρ⟩ fun r => ∀ c : Dev nD,
      r.2.mem ((c : Thread nD τ).loc main_v0_0) = proj (m ((c : Thread nD τ).loc main_arg0)) (m ((c : Thread nD τ).loc main_arg1))
      ∧ r.2.mem ((c : Thread nD τ).loc main_v0_1) = sqDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalProj m c), (h c).2.1.trans (finalDist m c), (h c).2.2.1, (h c).2.2.2⟩)
    (run_blocks m ρ)

end Cert.KernelIdeal.Arrays

end
-- ==== Proof.ReferenceValue.lean ====
/-
  THE REFERENCE COMPUTES THE SPECIFICATION. Its first result is one contraction of the sentences with the matrix over
  the 1024 features: `proj`. Its second is built from that result alone: the row sums of its squares (a sum started at
  the zero word, which adds nothing), spread once along the rows and once along the columns, added; the batched
  contraction of the result with itself over the 128 projected features; twice that, subtracted; the clamp at zero.
  Read one operation at a time at an index `i = (b, i, j)`, each spread reads the row sums at `(b, i)` and at `(b, j)`,
  and the batched contraction pairs rows `(b, i, ·)` and `(b, j, ·)`: that is `sqDist`, term for term.
-/
import proofs.«170934_j9405978378446_1_alg».proof.Proof.Gen.ReferenceIdeal.Read
import proofs.«170934_j9405978378446_1_alg».proof.Proof.PairwiseDistance

noncomputable section

namespace Cert.ReferenceIdeal.RefValue

open Cert.ReferenceIdeal Cert.ReferenceIdeal.Gen Cert.ReferenceIdeal.Read
open Idealize.ShloMosaic Idealize.ShloMosaic.ValueIdx Cert.Probe

/-! ## Where each operation reads its operands, by coordinates -/

theorem projLhs (b : Fin 64) (l : Fin 512) (o : Fin 128) (k : Fin 1024) : lidx_main_v0 (ix3 b l o) k = ix3 b l k :=
  funext fun a => Fin.ext (by match a with | ⟨0, _⟩ => rfl | ⟨1, _⟩ => rfl | ⟨2, _⟩ => rfl)

theorem projRhs (b : Fin 64) (l : Fin 512) (o : Fin 128) (k : Fin 1024) : ridx_main_v0 (ix3 b l o) k = ix2 o k :=
  funext fun a => Fin.ext (by match a with | ⟨0, _⟩ => rfl | ⟨1, _⟩ => rfl)

/-- The row sums spread along the columns are read at `(b, i)`. -/
theorem rowSide (b : Fin 64) (i j : Fin 512) (k : Fin 128) : idx_main_v2 (idx_main_v4 (idx_main_v6 (ix3 b i j))) k = ix3 b i k :=
  funext fun a => Fin.ext (by match a with | ⟨0, _⟩ => rfl | ⟨1, _⟩ => rfl | ⟨2, _⟩ => rfl)

/-- The row sums spread along the rows are read at `(b, j)`. -/
theorem colSide (b : Fin 64) (i j : Fin 512) (k : Fin 128) : idx_main_v2 (idx_main_v5 (idx_main_v7 (ix3 b i j))) k = ix3 b j k :=
  funext fun a => Fin.ext (by match a with | ⟨0, _⟩ => rfl | ⟨1, _⟩ => rfl | ⟨2, _⟩ => rfl)

theorem gramLhs (b : Fin 64) (i j : Fin 512) (k : Fin 128) : lidx_main_v3 (ix3 b i j) k = ix3 b i k :=
  funext fun a => Fin.ext (by match a with | ⟨0, _⟩ => rfl | ⟨1, _⟩ => rfl | ⟨2, _⟩ => rfl)

theorem gramRhs (b : Fin 64) (i j : Fin 512) (k : Fin 128) : ridx_main_v3 (ix3 b i j) k = ix3 b j k :=
  funext fun a => Fin.ext (by match a with | ⟨0, _⟩ => rfl | ⟨1, _⟩ => rfl | ⟨2, _⟩ => rfl)

/-! ## The two results -/

/-- The first result is the projection. -/
theorem projected_eq (x0 : (⟨S64x512x1024, .f32⟩ : BufTy).Contents (Elt Ideal)) (x1 : (⟨S128x1024, .f32⟩ : BufTy).Contents (Elt Ideal)) :
    val_main_v0 (F := Ideal) x0 x1 = proj x0 x1 := by
  funext i
  obtain ⟨b, l, o, rfl⟩ : ∃ (b : Fin 64) (l : Fin 512) (o : Fin 128), i = ix3 b l o := ⟨i 0, i 1, i 2, eq_ix3 i⟩
  rw [val_main_v0_apply, proj_ix3]
  simp only [projLhs, projRhs]

/-- The second result is the clamped squared distance of the projected rows. -/
theorem distances_eq (x0 : (⟨S64x512x1024, .f32⟩ : BufTy).Contents (Elt Ideal)) (x1 : (⟨S128x1024, .f32⟩ : BufTy).Contents (Elt Ideal)) :
    val_main_v13 (F := Ideal) x0 x1 = sqDist x0 x1 := by
  funext i
  obtain ⟨b, p, q, rfl⟩ : ∃ (b : Fin 64) (p q : Fin 512), i = ix3 b p q := ⟨i 0, i 1, i 2, eq_ix3 i⟩
  rw [sqDist_ix3]
  simp only [sqNorm, gram, val_main_v13_apply, val_main_v11_apply, val_main_v8_apply, val_main_v6_apply, val_main_v4_apply,
    val_main_v7_apply, val_main_v5_apply, val_main_v2_apply, val_main_v1_apply, val_main_v10_apply, val_main_v9_apply,
    val_main_v3_apply, val_main_v12_apply, val_main_cst_apply, val_main_cst_0_apply, val_main_cst_1_apply,
    rowSide, colSide, gramLhs, gramRhs, projected_eq,
    Ideal.mulf_def, Ideal.addf_def, Ideal.subf_def, Ideal.maximumf_def, Ideal.ofBits_def, Ideal.ofBits_zero_f32, zero_add]

end Cert.ReferenceIdeal.RefValue

end
-- ==== Proof.lean ====
/- The proof of `Cert.Claim`.
   The kernel runs one grid point per sentence: it projects the sentence's 512 rows through the matrix (a product into a
   zero accumulator), stores the projected rows, and from the same rows forms their squared norms and their Gram matrix
   and stores `max ((s_i + s_j) − 2 · g_ij, 0)`. The reference contracts all sentences with the matrix at once, then
   the result with itself sentence by sentence, and combines the same three terms in the same order. Over the extended
   reals a change of number format is the identity and each product and each row sum is a plain finite sum, so both
   programs compute ONE function of the argument arrays, index by index (Proof/PairwiseDistance.lean): the reference
   operation by operation (Proof/ReferenceValue.lean), the kernel block by block (Proof/KernelBlock.lean) and the blocks
   are the sentences (Proof/KernelArrays.lean). Nothing is rearranged, so the inputs' finiteness is never used.
   The three frames are the programs' runs with the results forgotten; the idealization rewrote nothing, so there is
   nothing to preserve. -/
import proofs.«170934_j9405978378446_1_alg».proof.Defs
import proofs.«170934_j9405978378446_1_alg».proof.Proof.Gen.Kernel
import proofs.«170934_j9405978378446_1_alg».proof.Proof.Gen.Kernel.Skeleton
import proofs.«170934_j9405978378446_1_alg».proof.Proof.Gen.Kernel.Launch
import proofs.«170934_j9405978378446_1_alg».proof.Proof.Gen.Kernel.Points
import proofs.«170934_j9405978378446_1_alg».proof.Proof.Gen.Kernel.Frame
import proofs.«170934_j9405978378446_1_alg».proof.Proof.Gen.KernelIdeal
import proofs.«170934_j9405978378446_1_alg».proof.Proof.Gen.KernelIdeal.Skeleton
import proofs.«170934_j9405978378446_1_alg».proof.Proof.Gen.KernelIdeal.Launch
import proofs.«170934_j9405978378446_1_alg».proof.Proof.Gen.KernelIdeal.Points
import proofs.«170934_j9405978378446_1_alg».proof.Proof.Gen.KernelIdeal.Frame
import proofs.«170934_j9405978378446_1_alg».proof.Proof.Gen.ReferenceIdeal
import proofs.«170934_j9405978378446_1_alg».proof.Proof.Gen.Pre_finite_inputs
import proofs.«170934_j9405978378446_1_alg».proof.Proof.Gen.KernelIdeal.Value
import proofs.«170934_j9405978378446_1_alg».proof.Proof.Gen.ReferenceIdeal.Run
import proofs.«170934_j9405978378446_1_alg».proof.Proof.Gen.ReferenceIdeal.Read
import proofs.«170934_j9405978378446_1_alg».proof.Proof.KernelArrays
import proofs.«170934_j9405978378446_1_alg».proof.Proof.ReferenceValue
import Idealize.ShloMosaic.Adequacy
import Idealize.ShloMosaic.Init

noncomputable section

namespace Cert.Proof

open Idealize.ShloMosaic Idealize.SL.Sem Cert.Kernel

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the sentences and the matrix, the kernel's two result arrays end at the projection and
    the clamped squared distances of the arguments, and so do the reference's. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2.1, (h c).2.2.2⟩)
    (Cert.ReferenceIdeal.Value.run (F := Ideal) m' ρ')
  · exact (h c).1.trans ((Cert.ReferenceIdeal.RefValue.projected_eq _ _).trans (by rw [(hagree c).1, (hagree c).2]))
  · exact (h c).2.1.trans ((Cert.ReferenceIdeal.RefValue.distances_eq _ _).trans (by rw [(hagree c).1, (hagree c).2]))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
